-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg1 : IVec S2x800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S2x800000 32 := broadcastInDim S2x800000 ![] bcast_S_S2x800000 main_c_6
  let main_v20 : IVec S2x800000 1 := cmpi .sge main_arg1 main_v19
  let main_c_7 : IVec S_ 1 := constantI S_ 1 1#1
  let main_v21 : IVec S_ 1 := (fun x v => Host.reduce IntOp.andi x v reducesTo_S2x800000_S_d0_1 h_S_) main_v20 main_c_7
  let main_v22 : IVec S_ 1 := andi main_v18 main_v21
  let main_c_8 : IVec S_ 32 := constantI S_ 32 50000#32
  let main_v23 : IVec S2x800000 32 := broadcastInDim S2x800000 ![] bcast_S_S2x800000 main_c_8
  let main_v24 : IVec S2x800000 1 := cmpi .slt main_arg1 main_v23
  let main_c_9 : IVec S_ 1 := constantI S_ 1 1#1
  let main_v25 : IVec S_ 1 := (fun x v => Host.reduce IntOp.andi x v reducesTo_S2x800000_S_d0_1 h_S_) main_v24 main_c_9
  let main_v26 : IVec S_ 1 := andi main_v22 main_v25
  main_v26

def fn {F : FTy → Type} [FloatOps F] (main_arg0 : FVec F S50000x128 .f32) (main_arg1 : IVec S2x800000 32) (main_arg2 : FVec F S800000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S2000x128 : Shape := ⟨2, ![2000, 128]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩

abbrev nBuf : Space → Nat
  | .hbm => 46
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S50000x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S1, .i32⟩
  | .hbm, ⟨19, _⟩ => ⟨S_, .i32⟩
  | .hbm, ⟨20, _⟩ => ⟨S800000x1, .i32⟩
  | .hbm, ⟨21, _⟩ => ⟨S800000x1, .i1⟩
  | .hbm, ⟨22, _⟩ => ⟨S1x1, .i32⟩
  | .hbm, ⟨23, _⟩ => ⟨S800000x1, .i32⟩
  | .hbm, ⟨24, _⟩ => ⟨S800000x1, .i1⟩
  | .hbm, ⟨25, _⟩ => ⟨S800000x1, .i1⟩
  | .hbm, ⟨26, _⟩ => ⟨S_, .i1⟩
  | .hbm, ⟨27, _⟩ => ⟨S800000, .i1⟩
  | .hbm, ⟨28, _⟩ => ⟨S800000x128, .f32⟩
  | .hbm, ⟨29, _⟩ => ⟨S800000x128, .i1⟩
  | .hbm, ⟨30, _⟩ => ⟨S_, .f32⟩
  | .hbm, ⟨31, _⟩ => ⟨S800000x128, .f32⟩
  | .hbm, ⟨32, _⟩ => ⟨S800000x128, .f32⟩
  | .hbm, ⟨33, _⟩ => ⟨S800000x1, .f32⟩
  | .hbm, ⟨34, _⟩ => ⟨S800000x128, .f32⟩
  | .hbm, ⟨35, _⟩ => ⟨S800000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S128_S50000x128_1 : S128.BroadcastsInDim S50000x128 (![1] : Fin 1 → Fin S50000x128.rank)
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S50000x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x1, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.EdgeRange.lean ====
/-
  The added precondition, read back.

  The precondition ends with two conjuncts on the edge index, an array of 2 × 800000 words: every word is at least 0 and
  every word is below 50000, both as signed numbers. Each is printed as a reduction by `and` over the whole array of an
  elementwise comparison with a constant; the precondition being 1 makes each reduction 1, a reduction by `and` into
  one result is 1 only if every element is, and an elementwise comparison that is 1 says the order of the two words
  read as integers. So every word of the edge index names a node: `0 ≤ w < 50000`.
-/
import proofs.«420273_j61306363183454_3_alg».proof.Pre_finite_inputs
import proofs.«420273_j61306363183454_3_alg».proof.Proof.Gen.Pre_finite_inputs
import Idealize.ShloMosaic.Lib.ReduceAll
import Idealize.ShloMosaic.Lib.Affine
import Idealize.ShloMosaic.Lib.ValueIdx

noncomputable section

namespace Cert.Pre_finite_inputs.EdgeRange

open Cert.Pre_finite_inputs Idealize.ShloMosaic Idealize.ShloMosaic.ValueIdx

/-- A rank-0 array has one index. -/
instance : Subsingleton S_.Idx := ⟨fun a b => funext fun d => d.elim0⟩

variable {F : FTy → Type} [FloatOps F]

/-- Under the precondition every word of the edge index, read signed, lies in `[0, 50000)`. -/
theorem node_range (x0 : FVec F S50000x128 .f32) (a1 : IVec S2x800000 32) (x2 : FVec F S800000 .f32)
    (x3 : FVec F S128x128 .f32) (x4 : FVec F S128 .f32) (h : fn (F := F) x0 a1 x2 x3 x4 = fun _ => 1#1)
    (i : S2x800000.Idx) : 0 ≤ (a1 i).toInt ∧ (a1 i).toInt < 50000 := by
  have h0 := congrFun h ix0
  simp only [fn, fn_part1] at h0
  obtain ⟨h1, hlt⟩ := IntOp.andi_eq_one.1 h0
  obtain ⟨-, hge⟩ := IntOp.andi_eq_one.1 h1
  have ege := Host.reduce_andi_all _ _ _ _ _ hge i
  have elt := Host.reduce_andi_all _ _ _ _ _ hlt i
  have ege' : (0#32 : BitVec 32).toInt ≤ (a1 i).toInt := IntOp.cmpi_sge.1 ege
  have elt' : (a1 i).toInt < (50000#32 : BitVec 32).toInt := IntOp.cmpi_slt.1 elt
  have z0 : (0#32 : BitVec 32).toInt = 0 := by decide
  have z5 : (50000#32 : BitVec 32).toInt = 50000 := by decide
  omega

end Cert.Pre_finite_inputs.EdgeRange

end
-- ==== Proof.HostTail.lean ====
/-
  The host lines after the matrix product, as one function.

  After the product `S = X · W` (an array of 50000 rows of 128 entries) the program works on the edge list: row 0 of the
  edge index holds each edge's destination node, row 1 its source node. Both rows are read as vectors of 800000 words; a
  negative word is moved up by 50000 (`wrap`). The source nodes, as a column of start indices, gather 800000 rows of `S`;
  an edge whose source is outside `[0, 49999]` (`inRange`) gets a fill value in place of its row (`takeRows`). Each gathered
  row is multiplied by its edge's weight (`edgeScale`), and the products are added, row by row, onto the bias laid out
  over all 50000 nodes, each at its edge's destination node (`tail`).

  `after_tail`: the 40 host operations, run from any buffer contents, leave exactly `tail` of the product buffer and of
  the three arguments they read.
-/
import proofs.«420273_j61306363183454_3_alg».proof.Proof.Gen.KernelIdeal.Launch
import Idealize.ShloMosaic.Lib.StableHlo.Run

noncomputable section

namespace Cert.KernelIdeal.HostTail

open Cert.KernelIdeal Cert.KernelIdeal.Gen Idealize.ShloMosaic Idealize.ShloMosaic.TcCoe Idealize.SL.Sem Idealize.ShloMosaic.StableHlo

variable {F : FTy → Type} [FloatOps F]

/-- Row `0` of the edge index, the destination nodes, as a vector. -/
def edgeRow (a1 : IVec S2x800000 32) : IVec S800000 32 :=
  shapeCast _ (extractStridedSlice S1x800000 ![0, 0] a1 slices_S2x800000_S1x800000_0_0) shapeCasts_S1x800000_S800000

/-- Row `1` of the edge index, the source nodes, as a vector. -/
def edgeCol (a1 : IVec S2x800000 32) : IVec S800000 32 :=
  shapeCast _ (extractStridedSlice S1x800000 ![1, 0] a1 slices_S2x800000_S1x800000_1_0) shapeCasts_S1x800000_S800000

/-- A negative node number counts from the end: it is moved up by the number of nodes. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of node numbers as a column of start indices. -/
def asCol (v : IVec S800000 32) : IVec S800000x1 32 := broadcastInDim S800000x1 ![0] bcast_S800000_S800000x1_0 v

/-- Per edge: is the start index a node, `0 ≤ · ≤ 49999`? -/
def inRange (ci : IVec S800000x1 32) : IVec S800000 1 :=
  Host.reduce IntOp.andi
    (andi (cmpi .sge ci (broadcastInDim S800000x1 ![] bcast_S_S800000x1 (constantI S_ 32 0#32)))
      (cmpi .sle ci (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The gathered rows of `sup`, one per edge; an edge whose start index is no node gets the fill value. -/
def takeRows (sup : FVec F S50000x128 .f32) (ci : IVec S800000x1 32) : FVec F S800000x128 .f32 :=
  select (broadcastInDim S800000x128 ![0] bcast_S800000_S800000x128_0 (inRange ci))
    (Host.gather gather_S50000x128_S800000x1_S800000x128_1_0_n_n_0_1_1128 sup ci)
    (broadcastInDim S800000x128 ![] bcast_S_S800000x128 (constant S_ .f32 0x7FC00000#32))

/-- The edge weights laid along the 128 columns. -/
def edgeScale (a2 : FVec F S800000 .f32) : FVec F S800000x128 .f32 :=
  broadcastInDim S800000x128 ![0, 1] bcast_S800000x1_S800000x128_0_1 (broadcastInDim S800000x1 ![0] bcast_S800000_S800000x1_0 a2)

/-- The bias laid over all rows, plus every edge's weighted source row added at its destination row. -/
def tail (sup : FVec F S50000x128 .f32) (a1 : IVec S2x800000 32) (a2 : FVec F S800000 .f32) (a4 : FVec F S128 .f32) :
    FVec F S50000x128 .f32 :=
  Host.scatterAdd scatter_S50000x128_S800000x1_S800000x128_1_0_0_1 (broadcastInDim S50000x128 ![1] bcast_S128_S50000x128_1 a4)
    (asCol (wrap (edgeRow a1))) (mulf (takeRows sup (asCol (wrap (edgeCol a1)))) (edgeScale a2))

set_option maxHeartbeats 4000000 in
/-- The lines after the product, from any contents `W` of the device's buffers, end with the result buffer at `tail` of
    the product buffer, the edge index, the edge weights and the bias as `W` has them. -/
theorem after_tail (W : Valuation τ sig (Elt F)) :
    StableHlo.after (List.flatten [hostOps1, hostOps1_1, hostOps1_2]) W (Proc.devRef .tc main_v16)
      = tail (F := F) (W (Proc.devRef .tc main_v0)) (W (Proc.devRef .tc main_arg1)) (W (Proc.devRef .tc main_arg2))
          (W (Proc.devRef .tc main_arg4)) := by
  simp only [hostOps1, hostOps1_1, hostOps1_2, List.flatten_cons, List.flatten_nil, List.append_nil, List.cons_append,
    List.nil_append]
  after_results_simp
  simp only [TRef.toBuf, TRef.ofBuf, cast_eq]
  rfl

end Cert.KernelIdeal.HostTail

end
-- ==== Proof.Product.lean ====
/-
  The dense product, read off the pipeline.

  The kernel multiplies the node features `X` (50000 rows of 128 entries) by the weights `W` (128 × 128) in 25 grid
  steps. Step `t` loads rows `2000·t … 2000·t + 1999` of `X` and the whole of `W`, multiplies them on the matrix unit into a
  zero accumulator, and writes the 2000 × 128 result back as rows `2000·t …` of the output. Over the extended reals the
  change of float format before the product is the identity and the matrix unit's product is the plain sum over the
  128 contracted positions, so every step writes a block of ONE array, `rowsTimes X W`, whose entry `(n, d)` is
  `∑ k, X (n, k) · W (k, d)`; the 25 blocks tile the 50000 rows, so after the last step the output array IS that array.
-/
import proofs.«420273_j61306363183454_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The product of a 50000 × 128 array with a 128 × 128 array: entry `(n, d)` is `∑ k, x (n, k) · w (k, d)`. -/
def rowsTimes (x : (⟨S50000x128, .f32⟩ : BufTy).Contents (Elt Ideal)) (w : (⟨S128x128, .f32⟩ : BufTy).Contents (Elt Ideal)) :
    (⟨S50000x128, .f32⟩ : BufTy).Contents (Elt Ideal) :=
  fun i => ∑ k : Fin 128, x (ix2 (i 0) k) * w (ix2 k (i 1))

/-! ## One block's product at an entry -/

/-- The left operand of the block product is read at the output's row … -/
theorem lhs_axis0 (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and the contracted position; -/
theorem lhs_axis1 (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
/-- the right operand at the contracted position … -/
theorem rhs_axis0 (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
/-- … and the output's column. -/
theorem rhs_axis1 (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- What a grid step stores, at row `p` and column `q` of its block: the sum over the 128 contracted positions of the
    loaded rows' entry times the loaded weights' entry. The two changes of float format are the identity here, and
    the accumulator is the zero splat. -/
theorem blockProduct_apply (v0 : Vec Ideal S2000x128 .f32) (v2 : Vec Ideal S128x128 .f32) (p : Fin 2000) (q : Fin 128) :
    k0_pay1 (F := Ideal) v0 v2 (ix2 p q) = ∑ k : Fin 128, v0 (ix2 p k) * v2 (ix2 k q) := by
  unfold k0_pay1
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]
  rfl

/-! ## From the blocks to the array -/

variable (m : (ℓ : Loc nD τ sig) → Buf (Elt Ideal) ℓ)

theorem offsets_zero : (![0, 0] : Fin 2 → Nat) = fun _ => 0 := funext fun a => by fin_cases a <;> rfl

/-- The three index maps over the 25 grid steps: the rows window and the output window move together along the rows and
    sit at column block 0; the weights window stays at block (0, 0). -/
theorem index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every one of the 25 row blocks is some step's. -/
theorem every_row_block : ∀ b : Fin 25, ∃ t : Fin cfg0.N, win0_2.index t = ![b.val, 0] :=
  (by decide +kernel : ∀ b : Fin 25, ∃ t : Fin grid0.N, win0_2.index t = ![b.val, 0])

/-- What step `t` writes back is block `t` of `rowsTimes X W`, `X` and `W` the two argument arrays as the pipeline finds them. -/
theorem flushed_eq (c : Dev nD) (t : Fin cfg0.N) :
    (dats m 0 c).flushed 2 t
      = ((cfg0.win 2).blk t).view.read (Elt Ideal) (rowsTimes (V m c main_arg0) (V m c main_arg3)) := by
  show (cfg0.win 2).cut (grid0.coords t) ((dats m 0 c).after 2 t) = _
  rw [after0_2]
  unfold out0_2
  rw [View.canon_unit_zero offsets_zero]
  simp only [View.ld_unit_zero (S := S2000x128) offsets_zero, View.ld_unit_zero (S := S128x128) offsets_zero]
  obtain ⟨e0, e1, e2, e3, e4, e5⟩ := index_maps t
  funext j
  obtain ⟨p, q, rfl⟩ : ∃ (p : Fin 2000) (q : Fin 128), j = ix2 p q := ⟨j 0, j 1, eq_ix2 j⟩
  refine (blockProduct_apply (iblk m c 0 t) (iblk m c 1 t) p q).trans ?_
  show _ = rowsTimes (V m c main_arg0) (V m c main_arg3) (((cfg0.win 2).blk t).view.emb (ix2 p q))
  unfold rowsTimes
  refine Finset.sum_congr rfl fun k _ => ?_
  congr 1
  · show V m c main_arg0 (((cfg0.win 0).blk t).view.emb (ix2 p k)) = V m c main_arg0 _
    congr 1; funext a; apply Fin.ext
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 128 + 1 * k.val = k.val
      omega
  · show V m c main_arg3 (((cfg0.win 1).blk t).view.emb (ix2 k q)) = V m c main_arg3 _
    congr 1; funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An entry of the output array is in step `t`'s block when each of its coordinates is in the block's range. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Row `n` lies in the block of the step whose row block is `n / 2000`: the blocks cover the array. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_row_block ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- After the last step the output array is the product of the two argument arrays. -/
theorem product_array (c : Dev nD) :
    (dats m 0 c).arrAt 2 cfg0.N
      = rowsTimes (m ((c : Thread nD τ).loc main_arg0)) (m ((c : Thread nD τ).loc main_arg3)) :=
  (dats m 0 c).arrAt_eq_of_cover 2 (rowsTimes (V m c main_arg0) (V m c main_arg3)) (fun t _ => flushed_eq m c t) covered

end Cert.KernelIdeal.Product

end
-- ==== Proof.KernelRun.lean ====
/-
  The kernel's run, read.

  The generated frame run ends with the pipeline's output array at what the 25 grid steps wrote and every other buffer at
  what the host lines after the pipeline leave in it. The output array is the product `X · W` (`product_array`), the
  host lines' result is `tail` of the buffers they read (`after_tail`), and those buffers are the product array and three
  arguments nobody wrote. So the program ends with its result at `tail (X · W)` of the edge index, the edge weights and the
  bias, and with its five arguments as they were.
-/
import proofs.«420273_j61306363183454_3_alg».proof.Proof.HostTail
import proofs.«420273_j61306363183454_3_alg».proof.Proof.Product

set_option maxRecDepth 16384

noncomputable section

namespace Cert.KernelIdeal.Result

open Cert.KernelIdeal Cert.KernelIdeal.Gen Idealize.ShloMosaic Idealize.ShloMosaic.TcCoe Idealize.SL.Sem
open Cert.KernelIdeal.HostTail (tail after_tail)
open Cert.KernelIdeal.Product (rowsTimes product_array)

variable (m : (ℓ : Loc nD τ sig) → Buf (Elt Ideal) ℓ) (ρ : Dev nD → PrngReg)

/-- What the kernel program computes, from the launch memory of core `c`. -/
def result (c : Dev nD) : Buf (Elt Ideal) ((c : Thread nD τ).loc main_v16) :=
  tail (F := Ideal) (rowsTimes (m ((c : Thread nD τ).loc main_arg0)) (m ((c : Thread nD τ).loc main_arg3))) (m ((c : Thread nD τ).loc main_arg1)) (m ((c : Thread nD τ).loc main_arg2)) (m ((c : Thread nD τ).loc main_arg4))

/-- The result buffer after the host lines that follow the pipeline. -/
theorem afterTail_result (c : Dev nD) :
    Pipeline.afterTail₀ cfgs (dats m) 0 (V0 m) [hostOps1, hostOps1_1, hostOps1_2] c main_v16 = result m c := by
  unfold Pipeline.afterTail₀
  refine (after_tail _).trans ?_
  have e0 : (Pipeline.withArrays (cfgs 0).spec c (V0 m c) (fun w => (dats m 0 c).arrAt w (cfgs 0).N)) (Proc.devRef .tc main_v0)
      = rowsTimes (m ((c : Thread nD τ).loc main_arg0)) (m ((c : Thread nD τ).loc main_arg3)) :=
    (Pipeline.withArrays_arr spec0 launch0.win.arr_inj c _ _ 2).trans (product_array m c)
  have e1 : (Pipeline.withArrays (cfgs 0).spec c (V0 m c) (fun w => (dats m 0 c).arrAt w (cfgs 0).N)) (Proc.devRef .tc main_arg1) = (m ((c : Thread nD τ).loc main_arg1)) :=
    (Pipeline.withArrays_of_ne _ c (V0 m c) _ main_arg1 (by exact (by decide : ∀ w, Pipeline.arrRef spec0 w ≠ main_arg1))).trans
      (V_main_arg1 m c)
  have e2 : (Pipeline.withArrays (cfgs 0).spec c (V0 m c) (fun w => (dats m 0 c).arrAt w (cfgs 0).N)) (Proc.devRef .tc main_arg2) = (m ((c : Thread nD τ).loc main_arg2)) :=
    (Pipeline.withArrays_of_ne _ c (V0 m c) _ main_arg2 (by exact (by decide : ∀ w, Pipeline.arrRef spec0 w ≠ main_arg2))).trans
      (V_main_arg2 m c)
  have e4 : (Pipeline.withArrays (cfgs 0).spec c (V0 m c) (fun w => (dats m 0 c).arrAt w (cfgs 0).N)) (Proc.devRef .tc main_arg4) = (m ((c : Thread nD τ).loc main_arg4)) :=
    (Pipeline.withArrays_of_ne _ c (V0 m c) _ main_arg4 (by exact (by decide : ∀ w, Pipeline.arrRef spec0 w ≠ main_arg4))).trans
      (V_main_arg4 m c)
  rw [e0, e1, e2, e4]
  rfl

/-- Every weakly fair execution of the kernel program terminates with the result at `result` and the arguments unchanged. -/
theorem run : θ_run defs (onTc (τ := τ) (main (F := Ideal))) ⟨m, fun _ => 0, ρ⟩ (fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v16 (Pipeline.mem_restRefs_of main_v16 (by decide) (by decide))).trans (afterTail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.TailInRange.lean ====
/-
  The host lines when every word of the edge index names a node.

  If every word `w` of the edge index satisfies `0 ≤ w < 50000` as a signed number, three steps of the host lines do
  nothing: moving negative node numbers up by 50000 leaves both rows of the edge index as they are (`wrap_of_nonneg`),
  every edge's source passes the test `0 ≤ · ≤ 49999` (`inRange_of`), so no gathered row is replaced by the fill value
  (`takeRows_of`). What is left (`tail_of_range`) is: gather the source rows, scale each by its edge's weight, and add
  each onto the bias at its destination row.
-/
import proofs.«420273_j61306363183454_3_alg».proof.Proof.HostTail
import Idealize.ShloMosaic.Lib.Pipeline.Value
import Idealize.ShloMosaic.Lib.ValueIdx
import Idealize.ShloMosaic.Lib.Affine
import Idealize.ShloMosaic.PureOps.Reduce

noncomputable section

namespace Cert.KernelIdeal.HostTail

open Cert.KernelIdeal Cert.KernelIdeal.Gen Idealize.ShloMosaic Idealize.ShloMosaic.ValueIdx

variable {F : FTy → Type} [FloatOps F]

/-! ## The two rows of the edge index, and a vector as a column -/

/-- Entry `e` of the destination vector is word `(0, e)` of the edge index. -/
theorem edgeRow_apply (a1 : IVec S2x800000 32) (j : S800000.Idx) : edgeRow a1 j = a1 (ix2 (0 : Fin 2) (j 0)) := by
  unfold edgeRow
  refine (shapeCast_apply _ shapeCasts_S1x800000_S800000 j (ix2 (0 : Fin 1) (j 0)) ?_).trans ?_
  · rw [Shape.rowMajor_val_two, Shape.rowMajor_val_one]
    show 0 * 800000 + (j 0).val = (j 0).val
    omega
  · exact extractStridedSlice_apply ![0, 0] a1 slices_S2x800000_S1x800000_0_0 _ _ (fun a => match a with
      | ⟨0, _⟩ => rfl
      | ⟨1, _⟩ => by show (j 0).val = 0 + (j 0).val; omega)

/-- Entry `e` of the source vector is word `(1, e)` of the edge index. -/
theorem edgeCol_apply (a1 : IVec S2x800000 32) (j : S800000.Idx) : edgeCol a1 j = a1 (ix2 (1 : Fin 2) (j 0)) := by
  unfold edgeCol
  refine (shapeCast_apply _ shapeCasts_S1x800000_S800000 j (ix2 (0 : Fin 1) (j 0)) ?_).trans ?_
  · rw [Shape.rowMajor_val_two, Shape.rowMajor_val_one]
    show 0 * 800000 + (j 0).val = (j 0).val
    omega
  · exact extractStridedSlice_apply ![1, 0] a1 slices_S2x800000_S1x800000_1_0 _ _ (fun a => match a with
      | ⟨0, _⟩ => rfl
      | ⟨1, _⟩ => by show (j 0).val = 0 + (j 0).val; omega)

/-- The column of start indices made of a vector holds, in row `e`, the vector's entry `e`. -/
theorem asCol_apply (v : IVec S800000 32) (i : S800000x1.Idx) : asCol v i = v (ix1 (i 0)) := by
  unfold asCol
  exact broadcastInDim_apply ![0] bcast_S800000_S800000x1_0 v i (ix1 (i 0)) (fun a => match a with
    | ⟨0, _⟩ => rfl)

/-! ## Node numbers in range pass the three guards -/

/-- A vector of non-negative node numbers is not changed by moving the negative ones up. -/
theorem wrap_of_nonneg (v : IVec S800000 32) (hv : ∀ j, 0 ≤ (v j).toInt) : wrap v = v := by
  funext j
  unfold wrap
  rw [select_apply]
  have hc : cmpi .slt v (broadcastInDim S800000 ![] bcast_S_S800000 (constantI S_ 32 0#32)) j = 0#1 := by
    apply eq_zero_of_ne_one
    intro h1
    have hlt : (v j).toInt < (0#32 : BitVec 32).toInt := IntOp.cmpi_slt.1 h1
    have z0 : (0#32 : BitVec 32).toInt = 0 := by decide
    have := hv j
    omega
  rw [hc, select_zero]

/-- A fold by `and` from 1 over words that are all 1 is 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_ones f l _ (IntOp.andi_eq_one.2 ⟨h, hl a List.mem_cons_self⟩)
      (fun n hn => hl n (List.mem_cons_of_mem _ hn))

/-- A column of node numbers in `[0, 50000)` passes the test `0 ≤ · ≤ 49999` in every row. -/
theorem inRange_of (v : IVec S800000 32) (hv : ∀ j, 0 ≤ (v j).toInt ∧ (v j).toInt < 50000) (j : S800000.Idx) :
    inRange (asCol v) j = 1#1 := by
  unfold inRange
  rw [Host.reduce_eq_foldl]
  refine foldl_andi_ones _ _ _ rfl (fun i _ => ?_)
  have hi := hv (ix1 (i 0))
  have z0 : (0#32 : BitVec 32).toInt = 0 := by decide
  have z9 : (49999#32 : BitVec 32).toInt = 49999 := by decide
  refine IntOp.andi_eq_one.2 ⟨IntOp.cmpi_sge.2 ?_, IntOp.cmpi_sle.2 ?_⟩
  · show (0#32 : BitVec 32).toInt ≤ (asCol v i).toInt
    rw [asCol_apply]; omega
  · show (asCol v i).toInt ≤ (49999#32 : BitVec 32).toInt
    rw [asCol_apply]; omega

/-- Then no gathered row is replaced by the fill value. -/
theorem takeRows_of (sup : FVec F S50000x128 .f32) (v : IVec S800000 32)
    (hv : ∀ j, 0 ≤ (v j).toInt ∧ (v j).toInt < 50000) :
    takeRows sup (asCol v) = Host.gather gather_S50000x128_S800000x1_S800000x128_1_0_n_n_0_1_1128 sup (asCol v) := by
  funext i
  unfold takeRows
  rw [select_apply]
  have hm : broadcastInDim S800000x128 ![0] bcast_S800000_S800000x128_0 (inRange (asCol v)) i = 1#1 :=
    (broadcastInDim_apply ![0] bcast_S800000_S800000x128_0 _ i (ix1 (i 0)) (fun a => match a with
      | ⟨0, _⟩ => rfl)).trans (inRange_of v hv _)
  rw [hm, select_one]

/-- The host lines on an edge index whose every word names a node. -/
theorem tail_of_range (sup : FVec F S50000x128 .f32) (a1 : IVec S2x800000 32) (a2 : FVec F S800000 .f32)
    (a4 : FVec F S128 .f32) (hr : ∀ i : S2x800000.Idx, 0 ≤ (a1 i).toInt ∧ (a1 i).toInt < 50000) :
    tail sup a1 a2 a4
      = Host.scatterAdd scatter_S50000x128_S800000x1_S800000x128_1_0_0_1 (broadcastInDim S50000x128 ![1] bcast_S128_S50000x128_1 a4) (asCol (edgeRow a1))
          (mulf (Host.gather gather_S50000x128_S800000x1_S800000x128_1_0_n_n_0_1_1128 sup (asCol (edgeCol a1))) (edgeScale a2)) := by
  have hrow : ∀ j, 0 ≤ (edgeRow a1 j).toInt := fun j => by rw [edgeRow_apply]; exact (hr _).1
  have hcol : ∀ j, 0 ≤ (edgeCol a1 j).toInt ∧ (edgeCol a1 j).toInt < 50000 := fun j => by
    rw [edgeCol_apply]; exact hr _
  unfold tail
  rw [wrap_of_nonneg (edgeRow a1) hrow, wrap_of_nonneg (edgeCol a1) (fun j => (hcol j).1),
    takeRows_of sup (edgeCol a1) hcol]

end Cert.KernelIdeal.HostTail

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.SameSum.lean ====
/-
  The reference computes the same array.

  The reference multiplies `X` by `W` on the host, moves negative source nodes up by 50000, gathers the source rows
  (clamped into range, no fill value), scales each by its edge's weight, adds them at their destination rows onto an
  array of zeros, and adds the bias, laid over all rows, LAST. The kernel's host lines add onto the bias FIRST.

  Over the extended reals an accumulating scatter is, entry by entry, "what was there plus the sum of the updates that
  land there"; so the reference's entry `(n, d)` is `(0 + Σ) + bias d` and the kernel's is `bias d + Σ`, with the same
  sum `Σ` over the edges whose destination is `n`: equal, by the monoid laws of addition alone (no cancellation, so the
  infinities need no care) — `bias_last_eq_first`. With the host product read as the same sum over the contracted axis as
  the pipeline's (`hostProduct_eq`), and every word of the edge index a node (so that the kernel's guards pass:
  `tail_of_range`), the reference's whole term is the kernel's (`reference_eq_tail`).
-/
import proofs.«420273_j61306363183454_3_alg».proof.Proof.TailInRange
import proofs.«420273_j61306363183454_3_alg».proof.Proof.Product
import proofs.«420273_j61306363183454_3_alg».proof.Proof.LibScatterSum
import proofs.«420273_j61306363183454_3_alg».proof.Proof.Gen.ReferenceIdeal.Read
import Idealize.ShloMosaic.Lib.Pipeline.Value
import Idealize.ShloMosaic.Lib.ValueIdx
import Idealize.ShloMosaic.PureOps.Ideal.Laws

noncomputable section

namespace Cert.SameSum

open Idealize.ShloMosaic Idealize.ShloMosaic.ValueIdx
open Cert.KernelIdeal.HostTail (tail asCol edgeRow edgeCol edgeScale wrap)
open Cert.KernelIdeal.Product (rowsTimes)
open scoped BigOperators

/-- An array of zeros. -/
theorem zeros_apply (n : Fin 50000) (d : Fin 128) : (broadcastInDim Cert.ReferenceIdeal.S50000x128 ![] Cert.ReferenceIdeal.Gen.bcast_S_S50000x128 (constant (F := Ideal) Cert.ReferenceIdeal.S_ .f32 0x00000000#32)) (ix2 n d) = 0 := Ideal.ofBits_zero_f32

/-- The bias laid over the rows in one step reads, at `(n, d)`, the bias at `d`. -/
theorem biasRows_apply (a4 : FVec Ideal Cert.KernelIdeal.S128 .f32) (n : Fin 50000) (d : Fin 128) :
    (broadcastInDim Cert.KernelIdeal.S50000x128 ![1] Cert.KernelIdeal.Gen.bcast_S128_S50000x128_1 a4) (ix2 n d) = a4 (ix1 d) :=
  broadcastInDim_apply ![1] Cert.KernelIdeal.Gen.bcast_S128_S50000x128_1 a4 (ix2 n d) (ix1 d) (fun a => match a with
    | ⟨0, _⟩ => rfl)

/-- The bias made a row and then laid over the rows reads the same. -/
theorem biasRowThenRows_apply (a4 : FVec Ideal Cert.KernelIdeal.S128 .f32) (n : Fin 50000) (d : Fin 128) :
    (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 a4)) (ix2 n d) = a4 (ix1 d) :=
  (broadcastInDim_apply ![0, 1] Cert.ReferenceIdeal.Gen.bcast_S1x128_S50000x128_0_1 _ (ix2 n d) (ix2 (0 : Fin 1) d) (fun a => match a with
    | ⟨0, _⟩ => rfl
    | ⟨1, _⟩ => rfl)).trans
  (broadcastInDim_apply ![1] Cert.ReferenceIdeal.Gen.bcast_S128_S1x128_1 a4 (ix2 (0 : Fin 1) d) (ix1 d) (fun a => match a with
    | ⟨0, _⟩ => rfl))

/-- The reference's accumulating scatter onto any array `x`, at `(n, d)`: the entry of `x` plus the sum of the updates
    `(e, d)` over the edges `e` whose index word, read signed, is `n`. -/
theorem scatterRef_apply (x : FVec Ideal Cert.ReferenceIdeal.S50000x128 .f32) (idx : IVec Cert.KernelIdeal.S800000x1 32) (M : FVec Ideal Cert.KernelIdeal.S800000x128 .f32)
    (n : Fin 50000) (d : Fin 128) :
    Host.scatterAdd (F := Ideal) Cert.ReferenceIdeal.scatter_S50000x128_S800000x1_S800000x128_1_0_0_1 x idx M (ix2 n d) = x (ix2 n d) + ∑ e ∈ Finset.univ.filter (fun e : Fin 800000 => (idx (ix2 e (0 : Fin 1))).toInt = (n.val : ℤ)), M (ix2 e d) :=
  (congrFun (Ideal.hostScatterAdd_def Cert.ReferenceIdeal.scatter_S50000x128_S800000x1_S800000x128_1_0_0_1 .single x idx M) (ix2 n d)).trans
    (Cert.LibScatterSum.scatterAdd_rows Cert.ReferenceIdeal.Gen.scatter_S50000x128_S800000x1_S800000x128_1_0_0_1_wf x idx M n d)

/-- The kernel program's, likewise. -/
theorem scatterKer_apply (x : FVec Ideal Cert.KernelIdeal.S50000x128 .f32) (idx : IVec Cert.KernelIdeal.S800000x1 32) (M : FVec Ideal Cert.KernelIdeal.S800000x128 .f32)
    (n : Fin 50000) (d : Fin 128) :
    Host.scatterAdd (F := Ideal) Cert.KernelIdeal.scatter_S50000x128_S800000x1_S800000x128_1_0_0_1 x idx M (ix2 n d) = x (ix2 n d) + ∑ e ∈ Finset.univ.filter (fun e : Fin 800000 => (idx (ix2 e (0 : Fin 1))).toInt = (n.val : ℤ)), M (ix2 e d) :=
  (congrFun (Ideal.hostScatterAdd_def Cert.KernelIdeal.scatter_S50000x128_S800000x1_S800000x128_1_0_0_1 .single x idx M) (ix2 n d)).trans
    (Cert.LibScatterSum.scatterAdd_rows Cert.KernelIdeal.Gen.scatter_S50000x128_S800000x1_S800000x128_1_0_0_1_wf x idx M n d)

/-- `(0 + s) + a = a + s` on the extended reals, with every term given by an equation: only the monoid laws of addition. -/
theorem zero_sum_then_bias (u v z b b' s a : EReal) (hu : u = z + s) (hz : z = 0) (hb' : b' = a) (hv : v = b + s) (hb : b = a) :
    u + b' = v := by
  rw [hu, hz, hb', hv, hb, zero_add, add_comm]

/-- Adding the bias after scattering onto zeros is scattering onto the bias: entry by entry both are the bias entry
    plus the sum of the updates whose index word is the entry's row. -/
theorem bias_last_eq_first (idx : IVec Cert.KernelIdeal.S800000x1 32) (M : FVec Ideal Cert.KernelIdeal.S800000x128 .f32) (a4 : FVec Ideal Cert.KernelIdeal.S128 .f32) :
    addf (Host.scatterAdd (F := Ideal) Cert.ReferenceIdeal.scatter_S50000x128_S800000x1_S800000x128_1_0_0_1 (broadcastInDim Cert.ReferenceIdeal.S50000x128 ![] Cert.ReferenceIdeal.Gen.bcast_S_S50000x128 (constant (F := Ideal) Cert.ReferenceIdeal.S_ .f32 0x00000000#32)) idx M) (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 a4))
      = Host.scatterAdd (F := Ideal) Cert.KernelIdeal.scatter_S50000x128_S800000x1_S800000x128_1_0_0_1 (broadcastInDim Cert.KernelIdeal.S50000x128 ![1] Cert.KernelIdeal.Gen.bcast_S128_S50000x128_1 a4) idx M := by
  funext i
  obtain ⟨n, d, rfl⟩ : ∃ (n : Fin 50000) (d : Fin 128), i = ix2 n d := ⟨i 0, i 1, eq_ix2 i⟩
  rw [addf_apply]
  have hR := scatterRef_apply (broadcastInDim Cert.ReferenceIdeal.S50000x128 ![] Cert.ReferenceIdeal.Gen.bcast_S_S50000x128 (constant (F := Ideal) Cert.ReferenceIdeal.S_ .f32 0x00000000#32)) idx M n d
  have hK := scatterKer_apply (broadcastInDim Cert.KernelIdeal.S50000x128 ![1] Cert.KernelIdeal.Gen.bcast_S128_S50000x128_1 a4) idx M n d
  exact zero_sum_then_bias _ _ _ _ _ _ _ hR (zeros_apply n d) (biasRowThenRows_apply a4 n d) hK (biasRows_apply a4 n d)

/-- The host's product of the two argument arrays is the array the pipeline leaves: the same sum over the contracted axis. -/
theorem hostProduct_eq (x0 : FVec Ideal Cert.ReferenceIdeal.S50000x128 .f32) (x3 : FVec Ideal Cert.ReferenceIdeal.S128x128 .f32) :
    Host.dotGeneral (F := Ideal) Cert.ReferenceIdeal.dot_S50000x128_S128x128_S50000x128_1_0_0_1_n_n none x0 x3 = rowsTimes x0 x3 := by
  funext i
  refine (Cert.ReferenceIdeal.Read.val_main_v0_apply x0 x3 i).trans ?_
  unfold rowsTimes
  refine Finset.sum_congr rfl fun k _ => ?_
  have el : Cert.ReferenceIdeal.Read.lidx_main_v0 i k = ix2 (i 0) k := funext fun a => match a with
    | ⟨0, _⟩ => rfl
    | ⟨1, _⟩ => rfl
  have er : Cert.ReferenceIdeal.Read.ridx_main_v0 i k = ix2 k (i 1) := funext fun a => match a with
    | ⟨0, _⟩ => rfl
    | ⟨1, _⟩ => rfl
  rw [el, er]
  rfl

/-- The reference's result, as its run states it, is the kernel's host lines applied to the product array, when every word
    of the edge index names a node. -/
theorem reference_eq_tail (x0 : FVec Ideal Cert.ReferenceIdeal.S50000x128 .f32) (a1 : IVec Cert.KernelIdeal.S2x800000 32)
    (a2 : FVec Ideal Cert.KernelIdeal.S800000 .f32) (x3 : FVec Ideal Cert.ReferenceIdeal.S128x128 .f32) (a4 : FVec Ideal Cert.KernelIdeal.S128 .f32)
    (hr : ∀ i : Cert.KernelIdeal.S2x800000.Idx, 0 ≤ (a1 i).toInt ∧ (a1 i).toInt < 50000) :
    addf (Host.scatterAdd (F := Ideal) Cert.ReferenceIdeal.scatter_S50000x128_S800000x1_S800000x128_1_0_0_1 (broadcastInDim Cert.ReferenceIdeal.S50000x128 ![] Cert.ReferenceIdeal.Gen.bcast_S_S50000x128 (constant (F := Ideal) Cert.ReferenceIdeal.S_ .f32 0x00000000#32)) (broadcastInDim Cert.ReferenceIdeal.S800000x1 ![0] Cert.ReferenceIdeal.Gen.bcast_S800000_S800000x1_0 (shapeCast _ (extractStridedSlice Cert.ReferenceIdeal.S1x800000 ![0, 0] a1 Cert.ReferenceIdeal.Gen.slices_S2x800000_S1x800000_0_0) Cert.ReferenceIdeal.Gen.shapeCasts_S1x800000_S800000)) (mulf (Host.gather Cert.ReferenceIdeal.gather_S50000x128_S800000x1_S800000x128_1_0_n_n_0_1_1128 (Host.dotGeneral (F := Ideal) Cert.ReferenceIdeal.dot_S50000x128_S128x128_S50000x128_1_0_0_1_n_n none x0 x3) (broadcastInDim Cert.ReferenceIdeal.S800000x1 ![0] Cert.ReferenceIdeal.Gen.bcast_S800000_S800000x1_0 (select (cmpi .slt (shapeCast _ (extractStridedSlice Cert.ReferenceIdeal.S1x800000 ![1, 0] a1 Cert.ReferenceIdeal.Gen.slices_S2x800000_S1x800000_1_0) Cert.ReferenceIdeal.Gen.shapeCasts_S1x800000_S800000) (broadcastInDim Cert.ReferenceIdeal.S800000 ![] Cert.ReferenceIdeal.Gen.bcast_S_S800000 (constantI Cert.ReferenceIdeal.S_ 32 0#32))) (addi (shapeCast _ (extractStridedSlice Cert.ReferenceIdeal.S1x800000 ![1, 0] a1 Cert.ReferenceIdeal.Gen.slices_S2x800000_S1x800000_1_0) Cert.ReferenceIdeal.Gen.shapeCasts_S1x800000_S800000) (broadcastInDim Cert.ReferenceIdeal.S800000 ![] Cert.ReferenceIdeal.Gen.bcast_S_S800000 (constantI Cert.ReferenceIdeal.S_ 32 50000#32))) (shapeCast _ (extractStridedSlice Cert.ReferenceIdeal.S1x800000 ![1, 0] a1 Cert.ReferenceIdeal.Gen.slices_S2x800000_S1x800000_1_0) Cert.ReferenceIdeal.Gen.shapeCasts_S1x800000_S800000)))) (broadcastInDim Cert.ReferenceIdeal.S800000x128 ![0, 1] Cert.ReferenceIdeal.Gen.bcast_S800000x1_S800000x128_0_1 (broadcastInDim Cert.ReferenceIdeal.S800000x1 ![0] Cert.ReferenceIdeal.Gen.bcast_S800000_S800000x1_0 a2)))) (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 a4))
      = tail (F := Ideal) (rowsTimes x0 x3) a1 a2 a4 := by
  rw [Cert.KernelIdeal.HostTail.tail_of_range _ a1 a2 a4 hr]
  have hcol : wrap (edgeCol a1) = edgeCol a1 :=
    Cert.KernelIdeal.HostTail.wrap_of_nonneg (edgeCol a1) (fun j => by
      rw [Cert.KernelIdeal.HostTail.edgeCol_apply]; exact (hr _).1)
  show addf (Host.scatterAdd (F := Ideal) Cert.ReferenceIdeal.scatter_S50000x128_S800000x1_S800000x128_1_0_0_1 (broadcastInDim Cert.ReferenceIdeal.S50000x128 ![] Cert.ReferenceIdeal.Gen.bcast_S_S50000x128 (constant (F := Ideal) Cert.ReferenceIdeal.S_ .f32 0x00000000#32)) (asCol (edgeRow a1))
      (mulf (Host.gather Cert.KernelIdeal.gather_S50000x128_S800000x1_S800000x128_1_0_n_n_0_1_1128 (Host.dotGeneral (F := Ideal) Cert.ReferenceIdeal.dot_S50000x128_S128x128_S50000x128_1_0_0_1_n_n none x0 x3) (asCol (wrap (edgeCol a1)))) (edgeScale a2)))
      (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 a4)) = _
  rw [hostProduct_eq, hcol]
  exact bias_last_eq_first _ _ a4

end Cert.SameSum

end
-- ==== Proof.lean ====
/-
  A graph-convolution layer: `out[n] = bias + Σ over edges e with destination n of weight[e] · (X · W)[source e]`.

  The kernel computes the dense product `X · W` in a pipelined matrix-unit kernel (25 blocks of 2000 rows) and leaves the
  edge work to the host: gather the source rows (an out-of-range source would get a fill value), scale by the edge
  weights, and add at the destination rows ONTO the bias (negative destinations would count from the end). The reference
  multiplies on the host, gathers (an out-of-range source would be clamped), scales, adds at the destination rows onto
  zeros (a negative destination would be dropped) and adds the bias last.

  The two differ exactly where a word of the edge index is no node number, which is where the reference indexes out of
  range; the precondition says every word lies in `[0, 50000)`. There the kernel's guards do nothing, the two products are
  the same sums over the contracted axis (a change of float format is the identity over the extended reals), and
  "bias + Σ" against "(0 + Σ) + bias" is associativity and commutativity of addition, which hold with infinities too:
  no finiteness is used.

  The frames of the two kernel programs are the generated ones; the reference's frame and result are its generated run.
-/
import proofs.«420273_j61306363183454_3_alg».proof.Defs
import proofs.«420273_j61306363183454_3_alg».proof.Proof.Gen.Kernel
import proofs.«420273_j61306363183454_3_alg».proof.Proof.Gen.Kernel.Skeleton
import proofs.«420273_j61306363183454_3_alg».proof.Proof.Gen.Kernel.Launch
import proofs.«420273_j61306363183454_3_alg».proof.Proof.Gen.Kernel.Points
import proofs.«420273_j61306363183454_3_alg».proof.Proof.Gen.Kernel.Frame
import proofs.«420273_j61306363183454_3_alg».proof.Proof.Gen.KernelIdeal
import proofs.«420273_j61306363183454_3_alg».proof.Proof.Gen.KernelIdeal.Skeleton
import proofs.«420273_j61306363183454_3_alg».proof.Proof.Gen.KernelIdeal.Launch
import proofs.«420273_j61306363183454_3_alg».proof.Proof.Gen.KernelIdeal.Points
import proofs.«420273_j61306363183454_3_alg».proof.Proof.Gen.KernelIdeal.Frame
import proofs.«420273_j61306363183454_3_alg».proof.Proof.Gen.ReferenceIdeal
import proofs.«420273_j61306363183454_3_alg».proof.Proof.Gen.ReferenceIdeal.Run
import proofs.«420273_j61306363183454_3_alg».proof.Proof.Gen.Pre_finite_inputs
import proofs.«420273_j61306363183454_3_alg».proof.Proof.EdgeRange
import proofs.«420273_j61306363183454_3_alg».proof.Proof.KernelRun
import proofs.«420273_j61306363183454_3_alg».proof.Proof.SameSum
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's output: the kernel at `result`, and the reference, from arguments that agree and
    an edge index whose words are node numbers, at the same array. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  exact Cert.SameSum.reference_eq_tail _ _ _ _ _
    (Cert.Pre_finite_inputs.EdgeRange.node_range _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
